-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x3 : Shape := ⟨2, ![3200000, 3]⟩
abbrev S_ : Shape := ⟨0, ![]⟩

class Facts : Prop where
  bcast_S_S3200000x3 : S_.BroadcastsInDim S3200000x3 (![] : Fin 0 → Fin S3200000x3.rank)
  reducesTo_S3200000x3_S_d0_1 : S3200000x3.ReducesTo [0, 1] S_
  h_S_ : 0 < S_.numel

variable [Facts]

def fn {F : FTy → Type} [FloatOps F] (main_arg0 : FVec F S3200000x3 .f32) : IVec S_ 1 :=
  let main_v0 : FVec F S3200000x3 .f32 := Host.absf main_arg0
  let main_cst : FVec F S_ .f32 := constant S_ .f32 0x7F800000#32
  let main_v1 : FVec F S3200000x3 .f32 := broadcastInDim S3200000x3 ![] bcast_S_S3200000x3 main_cst
  let main_v2 : IVec S3200000x3 1 := cmpf .olt main_v0 main_v1
  let main_c : IVec S_ 1 := constantI S_ 1 1#1
  let main_v3 : IVec S_ 1 := (fun x v => Host.reduce IntOp.andi x v reducesTo_S3200000x3_S_d0_1 h_S_) main_v2 main_c
  main_v3
-- ==== Kernel.lean ====
abbrev S3200000x3 : Shape := ⟨2, ![3200000, 3]⟩
abbrev S3x3200000 : Shape := ⟨2, ![3, 3200000]⟩
abbrev S16x3200000 : Shape := ⟨2, ![16, 3200000]⟩
abbrev S3x32000 : Shape := ⟨2, ![3, 32000]⟩
abbrev S16x32000 : Shape := ⟨2, ![16, 32000]⟩
abbrev S1x32000 : Shape := ⟨2, ![1, 32000]⟩
abbrev S32000 : Shape := ⟨1, ![32000]⟩
abbrev S3200000x16 : Shape := ⟨2, ![3200000, 16]⟩

abbrev nBuf : Space → Nat
  | .hbm => 4
  | .vmem => 4
  | .smem => 0
  | _ => 0

abbrev bufTy : (tb : Table) → Fin (tcTables nBuf tb) → BufTy
  | .hbm, ⟨0, _⟩ => ⟨S3200000x3, .f32⟩
  | .hbm, ⟨1, _⟩ => ⟨S3x3200000, .f32⟩
  | .hbm, ⟨2, _⟩ => ⟨S16x3200000, .f32⟩
  | .hbm, ⟨3, _⟩ => ⟨S3200000x16, .f32⟩
  | .local _ .vmem, ⟨0, _⟩ => ⟨S3x32000, .f32⟩
  | .local _ .vmem, ⟨1, _⟩ => ⟨S3x32000, .f32⟩
  | .local _ .vmem, ⟨2, _⟩ => ⟨S16x32000, .f32⟩
  | .local _ .vmem, ⟨3, _⟩ => ⟨S16x32000, .f32⟩
  | _, _ => ⟨S3200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S3200000x3_S3x3200000_1_0 : S3200000x3.Transposes [1, 0] S3x3200000
  inb_S3x32000_S3x32000_0_0 : ∀ a, (![0, 0] : Fin 2 → Nat) a + S3x32000.size a ≤ S3x32000.size a
  h_S3x32000 : 0 < S3x32000.numel
  shapeCasts_S3x32000_S3x32000 : S3x32000.ShapeCasts S3x32000
  slices_S3x32000_o0_0_S1x32000 : S3x32000.Slices ![0, 0] S1x32000
  shapeCasts_S1x32000_S32000 : S1x32000.ShapeCasts S32000
  slices_S3x32000_o1_0_S1x32000 : S3x32000.Slices ![1, 0] S1x32000
  slices_S3x32000_o2_0_S1x32000 : S3x32000.Slices ![2, 0] S1x32000
  shapeCasts_S32000_S1x32000 : S32000.ShapeCasts S1x32000
  concatenates_S1x32000_S1x32000_S1x32000_S1x32000_S1x32000_S1x32000_S1x32000_S1x32000_S1x32000_S1x32000_S1x32000_S1x32000_S1x32000_S1x32000_S1x32000_S1x32000_S16x32000_d0 : Shape.Concatenates [S1x32000, S1x32000, S1x32000, S1x32000, S1x32000, S1x32000, S1x32000, S1x32000, S1x32000, S1x32000, S1x32000, S1x32000, S1x32000, S1x32000, S1x32000, S1x32000] S16x32000 0
  inb_S16x32000_S16x32000_0_0 : ∀ a, (![0, 0] : Fin 2 → Nat) a + S16x32000.size a ≤ S16x32000.size a
  h_S16x32000 : 0 < S16x32000.numel
  transposes_S16x3200000_S3200000x16_1_0 : S16x3200000.Transposes [1, 0] S3200000x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32000.size a ≤ S3x3200000.size a
  hwx0_0 : ∀ i : grid0.Coords, EltTy.bits .f32 = 32 ∨ (Rect.block (s := S3x3200000) S3x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32000.size a ≤ S16x3200000.size a
  hwx0_1 : ∀ i : grid0.Coords, EltTy.bits .f32 = 32 ∨ (Rect.block (s := S16x3200000) S16x32000.size (cc0_transform_1 i) (hinb0_1 i)).WholeWords (EltTy.packing .f32)

variable [Facts₀]

abbrev win0_0 : Pipeline.Window sig grid0 :=
  Pipeline.Window.ofSpec (Memref.whole main_v0) S3x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x32000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S3200000x3 : Shape := ⟨2, ![3200000, 3]⟩
abbrev S_ : Shape := ⟨0, ![]⟩
abbrev S3200000 : Shape := ⟨1, ![3200000]⟩
abbrev S3200000x1 : Shape := ⟨2, ![3200000, 1]⟩
abbrev S3200000x16 : Shape := ⟨2, ![3200000, 16]⟩

abbrev nBuf : Space → Nat
  | .hbm => 121
  | .vmem => 0
  | .smem => 0
  | _ => 0

abbrev bufTy : (tb : Table) → Fin (tcTables nBuf tb) → BufTy
  | .hbm, ⟨0, _⟩ => ⟨S3200000x3, .f32⟩
  | .hbm, ⟨1, _⟩ => ⟨S3200000x3, .f32⟩
  | .hbm, ⟨2, _⟩ => ⟨S_, .f32⟩
  | .hbm, ⟨3, _⟩ => ⟨S3200000, .f32⟩
  | .hbm, ⟨4, _⟩ => ⟨S3200000x1, .f32⟩
  | .hbm, ⟨5, _⟩ => ⟨S3200000x1, .f32⟩
  | .hbm, ⟨6, _⟩ => ⟨S_, .f32⟩
  | .hbm, ⟨7, _⟩ => ⟨S3200000x1, .f32⟩
  | .hbm, ⟨8, _⟩ => ⟨S3200000x1, .f32⟩
  | .hbm, ⟨9, _⟩ => ⟨S3200000x3, .f32⟩
  | .hbm, ⟨10, _⟩ => ⟨S3200000x3, .f32⟩
  | .hbm, ⟨11, _⟩ => ⟨S3200000x1, .f32⟩
  | .hbm, ⟨12, _⟩ => ⟨S3200000, .f32⟩
  | .hbm, ⟨13, _⟩ => ⟨S3200000x1, .f32⟩
  | .hbm, ⟨14, _⟩ => ⟨S3200000, .f32⟩
  | .hbm, ⟨15, _⟩ => ⟨S3200000x1, .f32⟩
  | .hbm, ⟨16, _⟩ => ⟨S3200000, .f32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S3200000, .f32⟩
  | .hbm, ⟨21, _⟩ => ⟨S3200000, .f32⟩
  | .hbm, ⟨22, _⟩ => ⟨S_, .f32⟩
  | .hbm, ⟨23, _⟩ => ⟨S3200000, .f32⟩
  | .hbm, ⟨24, _⟩ => ⟨S3200000, .f32⟩
  | .hbm, ⟨25, _⟩ => ⟨S_, .f32⟩
  | .hbm, ⟨26, _⟩ => ⟨S3200000, .f32⟩
  | .hbm, ⟨27, _⟩ => ⟨S3200000, .f32⟩
  | .hbm, ⟨28, _⟩ => ⟨S3200000, .f32⟩
  | .hbm, ⟨29, _⟩ => ⟨S3200000, .f32⟩
  | .hbm, ⟨30, _⟩ => ⟨S3200000, .f32⟩
  | .hbm, ⟨31, _⟩ => ⟨S3200000, .f32⟩
  | .hbm, ⟨32, _⟩ => ⟨S_, .f32⟩
  | .hbm, ⟨33, _⟩ => ⟨S3200000, .f32⟩
  | .hbm, ⟨34, _⟩ => ⟨S3200000, .f32⟩
  | .hbm, ⟨35, _⟩ => ⟨S3200000, .f32⟩
  | .hbm, ⟨36, _⟩ => ⟨S_, .f32⟩
  | .hbm, ⟨37, _⟩ => ⟨S3200000, .f32⟩
  | .hbm, ⟨38, _⟩ => ⟨S3200000, .f32⟩
  | .hbm, ⟨39, _⟩ => ⟨S3200000, .f32⟩
  | .hbm, ⟨40, _⟩ => ⟨S_, .f32⟩
  | .hbm, ⟨41, _⟩ => ⟨S3200000, .f32⟩
  | .hbm, ⟨42, _⟩ => ⟨S3200000, .f32⟩
  | .hbm, ⟨43, _⟩ => ⟨S3200000, .f32⟩
  | .hbm, ⟨44, _⟩ => ⟨S_, .f32⟩
  | .hbm, ⟨45, _⟩ => ⟨S3200000, .f32⟩
  | .hbm, ⟨46, _⟩ => ⟨S3200000, .f32⟩
  | .hbm, ⟨47, _⟩ => ⟨S_, .f32⟩
  | .hbm, ⟨48, _⟩ => ⟨S3200000, .f32⟩
  | .hbm, ⟨49, _⟩ => ⟨S3200000, .f32⟩
  | .hbm, ⟨50, _⟩ => ⟨S3200000, .f32⟩
  | .hbm, ⟨51, _⟩ => ⟨S3200000, .f32⟩
  | .hbm, ⟨52, _⟩ => ⟨S3200000, .f32⟩
  | .hbm, ⟨53, _⟩ => ⟨S3200000, .f32⟩
  | .hbm, ⟨54, _⟩ => ⟨S_, .f32⟩
  | .hbm, ⟨55, _⟩ => ⟨S3200000, .f32⟩
  | .hbm, ⟨56, _⟩ => ⟨S3200000, .f32⟩
  | .hbm, ⟨57, _⟩ => ⟨S3200000, .f32⟩
  | .hbm, ⟨58, _⟩ => ⟨S3200000, .f32⟩
  | .hbm, ⟨59, _⟩ => ⟨S3200000, .f32⟩
  | .hbm, ⟨60, _⟩ => ⟨S_, .f32⟩
  | .hbm, ⟨61, _⟩ => ⟨S3200000, .f32⟩
  | .hbm, ⟨62, _⟩ => ⟨S3200000, .f32⟩
  | .hbm, ⟨63, _⟩ => ⟨S_, .f32⟩
  | .hbm, ⟨64, _⟩ => ⟨S3200000, .f32⟩
  | .hbm, ⟨65, _⟩ => ⟨S3200000, .f32⟩
  | .hbm, ⟨66, _⟩ => ⟨S3200000, .f32⟩
  | .hbm, ⟨67, _⟩ => ⟨S_, .f32⟩
  | .hbm, ⟨68, _⟩ => ⟨S3200000, .f32⟩
  | .hbm, ⟨69, _⟩ => ⟨S3200000, .f32⟩
  | .hbm, ⟨70, _⟩ => ⟨S3200000, .f32⟩
  | .hbm, ⟨71, _⟩ => ⟨S_, .f32⟩
  | .hbm, ⟨72, _⟩ => ⟨S3200000, .f32⟩
  | .hbm, ⟨73, _⟩ => ⟨S3200000, .f32⟩
  | .hbm, ⟨74, _⟩ => ⟨S3200000, .f32⟩
  | .hbm, ⟨75, _⟩ => ⟨S_, .f32⟩
  | .hbm, ⟨76, _⟩ => ⟨S3200000, .f32⟩
  | .hbm, ⟨77, _⟩ => ⟨S3200000, .f32⟩
  | .hbm, ⟨78, _⟩ => ⟨S_, .f32⟩
  | .hbm, ⟨79, _⟩ => ⟨S3200000, .f32⟩
  | .hbm, ⟨80, _⟩ => ⟨S3200000, .f32⟩
  | .hbm, ⟨81, _⟩ => ⟨S_, .f32⟩
  | .hbm, ⟨82, _⟩ => ⟨S3200000, .f32⟩
  | .hbm, ⟨83, _⟩ => ⟨S3200000, .f32⟩
  | .hbm, ⟨84, _⟩ => ⟨S3200000, .f32⟩
  | .hbm, ⟨85, _⟩ => ⟨S3200000, .f32⟩
  | .hbm, ⟨86, _⟩ => ⟨S_, .f32⟩
  | .hbm, ⟨87, _⟩ => ⟨S3200000, .f32⟩
  | .hbm, ⟨88, _⟩ => ⟨S3200000, .f32⟩
  | .hbm, ⟨89, _⟩ => ⟨S_, .f32⟩
  | .hbm, ⟨90, _⟩ => ⟨S3200000, .f32⟩
  | .hbm, ⟨91, _⟩ => ⟨S3200000, .f32⟩
  | .hbm, ⟨92, _⟩ => ⟨S3200000, .f32⟩
  | .hbm, ⟨93, _⟩ => ⟨S3200000, .f32⟩
  | .hbm, ⟨94, _⟩ => ⟨S_, .f32⟩
  | .hbm, ⟨95, _⟩ => ⟨S3200000, .f32⟩
  | .hbm, ⟨96, _⟩ => ⟨S3200000, .f32⟩
  | .hbm, ⟨97, _⟩ => ⟨S3200000, .f32⟩
  | .hbm, ⟨98, _⟩ => ⟨S3200000, .f32⟩
  | .hbm, ⟨99, _⟩ => ⟨S3200000, .f32⟩
  | .hbm, ⟨100, _⟩ => ⟨S3200000, .f32⟩
  | .hbm, ⟨101, _⟩ => ⟨S_, .f32⟩
  | .hbm, ⟨102, _⟩ => ⟨S3200000, .f32⟩
  | .hbm, ⟨103, _⟩ => ⟨S3200000, .f32⟩
  | .hbm, ⟨104, _⟩ => ⟨S3200000x1, .f32⟩
  | .hbm, ⟨105, _⟩ => ⟨S3200000x1, .f32⟩
  | .hbm, ⟨106, _⟩ => ⟨S3200000x1, .f32⟩
  | .hbm, ⟨107, _⟩ => ⟨S3200000x1, .f32⟩
  | .hbm, ⟨108, _⟩ => ⟨S3200000x1, .f32⟩
  | .hbm, ⟨109, _⟩ => ⟨S3200000x1, .f32⟩
  | .hbm, ⟨110, _⟩ => ⟨S3200000x1, .f32⟩
  | .hbm, ⟨111, _⟩ => ⟨S3200000x1, .f32⟩
  | .hbm, ⟨112, _⟩ => ⟨S3200000x1, .f32⟩
  | .hbm, ⟨113, _⟩ => ⟨S3200000x1, .f32⟩
  | .hbm, ⟨114, _⟩ => ⟨S3200000x1, .f32⟩
  | .hbm, ⟨115, _⟩ => ⟨S3200000x1, .f32⟩
  | .hbm, ⟨116, _⟩ => ⟨S3200000x1, .f32⟩
  | .hbm, ⟨117, _⟩ => ⟨S3200000x1, .f32⟩
  | .hbm, ⟨118, _⟩ => ⟨S3200000x1, .f32⟩
  | .hbm, ⟨119, _⟩ => ⟨S3200000x1, .f32⟩
  | .hbm, ⟨120, _⟩ => ⟨S3200000x16, .f32⟩
  | _, _ => ⟨S3200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_20 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]

class Facts₀ : Prop where
  reducesTo_S3200000x3_S3200000_d1 : S3200000x3.ReducesTo [1] S3200000
  h_S_ : 0 < S_.numel
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S3200000x1_S3200000x3_0_1 : S3200000x1.BroadcastsInDim S3200000x3 (![0, 1] : Fin 2 → Fin S3200000x3.rank)
  slices_S3200000x3_S3200000x1_0_0 : S3200000x3.Slices ![0, 0] S3200000x1
  shapeCasts_S3200000x1_S3200000 : S3200000x1.ShapeCasts S3200000
  slices_S3200000x3_S3200000x1_0_1 : S3200000x3.Slices ![0, 1] S3200000x1
  slices_S3200000x3_S3200000x1_0_2 : S3200000x3.Slices ![0, 2] S3200000x1
  bcast_S_S3200000 : S_.BroadcastsInDim S3200000 (![] : Fin 0 → Fin S3200000.rank)
  concatenates_S3200000x1_S3200000x1_S3200000x1_S3200000x1_S3200000x1_S3200000x1_S3200000x1_S3200000x1_S3200000x1_S3200000x1_S3200000x1_S3200000x1_S3200000x1_S3200000x1_S3200000x1_S3200000x1_S3200000x16_d1 : Shape.Concatenates [S3200000x1, S3200000x1, S3200000x1, S3200000x1, S3200000x1, S3200000x1, S3200000x1, S3200000x1, S3200000x1, S3200000x1, S3200000x1, S3200000x1, S3200000x1, S3200000x1, S3200000x1, S3200000x1] S3200000x16 1

variable [Facts₀]

class Facts : Prop extends Facts₀ where

variable [Facts]
-- ==== Proof.Spec.lean ====
/-
  The specification both programs meet at the ideal instance, index by index.

  An edge vector (a, b, c) is divided by its clamped length d = max(sqrt(a*a + b*b + c*c), eps), and the unit
  vector (x, y, z) is expanded into the sixteen real spherical-harmonic polynomials of degrees 0 to 3. The
  polynomials are written once, as extended-real expressions over the named constants, in exactly the
  association in which both programs compute them; so neither side's arithmetic is ever opened.

  The one law that joins the two programs is about the division: one of them multiplies by the reciprocal
  1 / d, the other divides by d. On the extended reals the ideal division by a NON-ZERO divisor is the product
  with the inverse, and d is never zero because it is at least eps > 0. No finiteness of the input is needed.
-/
import Idealize.ShloMosaic.PureOps.Ideal
import Idealize.ShloMosaic.PureOps.Ideal.Laws
import Idealize.ShloMosaic.Lib.ValueIdx
import Mathlib.Tactic.NormNum

noncomputable section

namespace Cert.Harmonics

open Idealize.ShloMosaic Idealize.ShloMosaic.ValueIdx

/-! ## The constants, as the single-precision words both programs carry -/

/-- The word of 1.0. -/
abbrev cOne : EReal := Ideal.ofBits .f32 0x3F800000#32
/-- The word of the clamp on the length (the single-precision number nearest 1e-12). -/
abbrev cEps : EReal := Ideal.ofBits .f32 0x2B8CBCCC#32
/-- sqrt 3, sqrt 15, 1/2, sqrt 5, sqrt 15 / 2, rounded to single precision. -/
abbrev cS3 : EReal := Ideal.ofBits .f32 0x3FDDB3D7#32
abbrev cS15 : EReal := Ideal.ofBits .f32 0x4077DEF6#32
abbrev cHalf : EReal := Ideal.ofBits .f32 0x3F000000#32
abbrev cS5 : EReal := Ideal.ofBits .f32 0x400F1BBD#32
abbrev cHS15 : EReal := Ideal.ofBits .f32 0x3FF7DEF6#32
/-- The four degree-3 coefficients sqrt 42 / 6, sqrt 7, sqrt 168 / 8, sqrt 7 / 2, rounded, and 4, 2, 3. -/
abbrev cC30 : EReal := Ideal.ofBits .f32 0x3F8A417C#32
abbrev cC31 : EReal := Ideal.ofBits .f32 0x402953FD#32
abbrev cC32 : EReal := Ideal.ofBits .f32 0x3FCF623A#32
abbrev cC33 : EReal := Ideal.ofBits .f32 0x3FA953FD#32
abbrev cFour : EReal := Ideal.ofBits .f32 0x40800000#32
abbrev cTwo : EReal := Ideal.ofBits .f32 0x40000000#32
abbrev cThree : EReal := Ideal.ofBits .f32 0x40400000#32

/-! ## The sixteen polynomials of a vector (x, y, z) -/

/-- y squared. -/
def ysq (y : EReal) : EReal := y * y
/-- x squared plus z squared. -/
def xzsq (x z : EReal) : EReal := x * x + z * z
/-- The degree-2 term sqrt 15 * x * z. -/
def d2a (x z : EReal) : EReal := cS15 * x * z
/-- The degree-2 term (sqrt 15 / 2) * (z*z - x*x). -/
def d2e (x z : EReal) : EReal := cHS15 * (z * z - x * x)

/-- The sixteen components, degree 0, then 1, 2, 3, in the order both programs stack them. -/
def poly (x y z : EReal) : Fin 16 → EReal
  | ⟨0, _⟩ => cOne
  | ⟨1, _⟩ => cS3 * x
  | ⟨2, _⟩ => cS3 * y
  | ⟨3, _⟩ => cS3 * z
  | ⟨4, _⟩ => d2a x z
  | ⟨5, _⟩ => cS15 * x * y
  | ⟨6, _⟩ => cS5 * (ysq y - cHalf * xzsq x z)
  | ⟨7, _⟩ => cS15 * y * z
  | ⟨8, _⟩ => d2e x z
  | ⟨9, _⟩ => cC30 * (d2a x z * z + d2e x z * x)
  | ⟨10, _⟩ => cC31 * d2a x z * y
  | ⟨11, _⟩ => cC32 * (cFour * ysq y - xzsq x z) * x
  | ⟨12, _⟩ => cC33 * y * (cTwo * ysq y - cThree * xzsq x z)
  | ⟨13, _⟩ => cC32 * z * (cFour * ysq y - xzsq x z)
  | ⟨14, _⟩ => cC31 * d2e x z * y
  | ⟨15, _⟩ => cC30 * (d2e x z * z - d2a x z * x)
  | ⟨n + 16, h⟩ => absurd h (by omega)

/-! ## The clamped length and the unit vector -/

/-- The clamped length of (a, b, c). -/
def len (a b c : EReal) : EReal := max (Ideal.sqrt (a * a + b * b + c * c)) cEps

/-- The whole result: row r of the input gives row r of the output, column j the j-th polynomial of the unit
    vector. -/
def G (arg : (⟨2, ![3200000, 3]⟩ : Shape).Idx → EReal) : (⟨2, ![3200000, 16]⟩ : Shape).Idx → EReal := fun i =>
  poly (Ideal.div (arg (ix2 (i 0) 0)) (len (arg (ix2 (i 0) 0)) (arg (ix2 (i 0) 1)) (arg (ix2 (i 0) 2))))
       (Ideal.div (arg (ix2 (i 0) 1)) (len (arg (ix2 (i 0) 0)) (arg (ix2 (i 0) 1)) (arg (ix2 (i 0) 2))))
       (Ideal.div (arg (ix2 (i 0) 2)) (len (arg (ix2 (i 0) 0)) (arg (ix2 (i 0) 1)) (arg (ix2 (i 0) 2))))
       (i 1)

/-! ## The law: multiplying by the reciprocal of the clamped length is dividing by it -/

/-- The clamp is a positive real. -/
theorem cEps_pos : (0 : EReal) < cEps := by
  simp [cEps, Ideal.ofBits, Ideal.ieee, -EReal.coe_mul]

/-- The word of 1.0 denotes 1. -/
theorem cOne_eq : cOne = 1 := by
  simp [cOne, Ideal.ofBits, Ideal.ieee, -EReal.coe_mul]
  norm_num

/-- The clamped length is never zero: it is at least the clamp. -/
theorem len_ne_zero (a b c : EReal) : len a b c ≠ 0 :=
  (lt_of_lt_of_le cEps_pos (le_max_right _ _)).ne'

/-- x * (1 / d) = x / d at the ideal instance, d the clamped length. -/
theorem mul_recip_len (x a b c : EReal) : x * Ideal.div cOne (len a b c) = Ideal.div x (len a b c) := by
  unfold Ideal.div
  rw [if_neg (len_ne_zero a b c), if_neg (len_ne_zero a b c), cOne_eq, one_mul]

/-! ## The square root of a vector at an index -/

/-- A vector's square root reads, at an index, the square root of the entry. -/
theorem sqrt_apply {s : Shape} {φ : FTy} (a : FVec Ideal s φ) (i : s.Idx) :
    Idealize.ShloMosaic.sqrt a i = Ideal.sqrt (a i) := rfl

end Cert.Harmonics

end
-- ==== Proof.Rows.lean ====
/-
  Layout operations read at an index, in the forms the two programs use them.

  Both programs end by STACKING sixteen arrays of unit extent along one axis (rows in one, columns in the
  other): the stack, read at an index, is the piece its coordinate on that axis names, read at the same
  coordinates elsewhere. The other lemmas read a column broadcast of a vector, one row sliced from a matrix,
  and a vector reshaped to a row, each at an index given by coordinates.
-/
import Idealize.ShloMosaic.Lib.Pipeline.Value
import Idealize.ShloMosaic.Lib.ValueIdx
import Idealize.ShloMosaic.Lib.ValueLayout

noncomputable section

namespace Cert.Harmonics

open Idealize.ShloMosaic Idealize.ShloMosaic.ValueIdx Idealize.ShloMosaic.Pipeline

variable {α : Type}

/-- One of sixteen things, by its number. -/
def pick16 {β : Type} (v0 v1 v2 v3 v4 v5 v6 v7 v8 v9 v10 v11 v12 v13 v14 v15 : β) : Fin 16 → β
  | ⟨0, _⟩ => v0
  | ⟨1, _⟩ => v1
  | ⟨2, _⟩ => v2
  | ⟨3, _⟩ => v3
  | ⟨4, _⟩ => v4
  | ⟨5, _⟩ => v5
  | ⟨6, _⟩ => v6
  | ⟨7, _⟩ => v7
  | ⟨8, _⟩ => v8
  | ⟨9, _⟩ => v9
  | ⟨10, _⟩ => v10
  | ⟨11, _⟩ => v11
  | ⟨12, _⟩ => v12
  | ⟨13, _⟩ => v13
  | ⟨14, _⟩ => v14
  | ⟨15, _⟩ => v15
  | ⟨n + 16, h⟩ => absurd h (by omega)

/-- Sixteen pieces of one shape, of extent 1 along the axis, stacked along it: at an index whose coordinate
    on the axis is n the stack reads piece n, at the index with the same coordinates off the axis. -/
theorem stack16_apply {t s₁ : Shape} (a : Fin t.rank)
    (v0 v1 v2 v3 v4 v5 v6 v7 v8 v9 v10 v11 v12 v13 v14 v15 : s₁.Idx → α)
    (h : Shape.Concatenates [s₁, s₁, s₁, s₁, s₁, s₁, s₁, s₁, s₁, s₁, s₁, s₁, s₁, s₁, s₁, s₁] t a)
    (hr : s₁.rank = t.rank) (h1 : s₁.size (a.cast hr.symm) = 1) (j : t.Idx) (n : Fin 16) (hn : (j a).val = n.val)
    (i : s₁.Idx) (hi : ∀ b : Fin s₁.rank, b.cast hr ≠ a → (i b).val = (j (b.cast hr)).val) :
    concatenate t a [⟨s₁, v0⟩, ⟨s₁, v1⟩, ⟨s₁, v2⟩, ⟨s₁, v3⟩, ⟨s₁, v4⟩, ⟨s₁, v5⟩, ⟨s₁, v6⟩, ⟨s₁, v7⟩, ⟨s₁, v8⟩,
      ⟨s₁, v9⟩, ⟨s₁, v10⟩, ⟨s₁, v11⟩, ⟨s₁, v12⟩, ⟨s₁, v13⟩, ⟨s₁, v14⟩, ⟨s₁, v15⟩] h j
      = (![v0, v1, v2, v3, v4, v5, v6, v7, v8, v9, v10, v11, v12, v13, v14, v15] : Fin 16 → s₁.Idx → α) n i :=
  concatenate_ofFn_unit_apply a
    (![v0, v1, v2, v3, v4, v5, v6, v7, v8, v9, v10, v11, v12, v13, v14, v15] : Fin 16 → s₁.Idx → α) h hr h1 j n hn i hi

/-- The same, the piece named through `pick16`. -/
theorem stack16_pick_apply {t s₁ : Shape} (a : Fin t.rank)
    (v0 v1 v2 v3 v4 v5 v6 v7 v8 v9 v10 v11 v12 v13 v14 v15 : s₁.Idx → α)
    (h : Shape.Concatenates [s₁, s₁, s₁, s₁, s₁, s₁, s₁, s₁, s₁, s₁, s₁, s₁, s₁, s₁, s₁, s₁] t a)
    (hr : s₁.rank = t.rank) (h1 : s₁.size (a.cast hr.symm) = 1) (j : t.Idx) (n : Fin 16) (hn : (j a).val = n.val)
    (i : s₁.Idx) (hi : ∀ b : Fin s₁.rank, b.cast hr ≠ a → (i b).val = (j (b.cast hr)).val) :
    concatenate t a [⟨s₁, v0⟩, ⟨s₁, v1⟩, ⟨s₁, v2⟩, ⟨s₁, v3⟩, ⟨s₁, v4⟩, ⟨s₁, v5⟩, ⟨s₁, v6⟩, ⟨s₁, v7⟩, ⟨s₁, v8⟩,
      ⟨s₁, v9⟩, ⟨s₁, v10⟩, ⟨s₁, v11⟩, ⟨s₁, v12⟩, ⟨s₁, v13⟩, ⟨s₁, v14⟩, ⟨s₁, v15⟩] h j
      = pick16 v0 v1 v2 v3 v4 v5 v6 v7 v8 v9 v10 v11 v12 v13 v14 v15 n i :=
  concatenate_ofFn_unit_apply a (pick16 v0 v1 v2 v3 v4 v5 v6 v7 v8 v9 v10 v11 v12 v13 v14 v15) h hr h1 j n hn i hi

/-- A vector of length n broadcast to an n-by-1 column reads, at (r, u), the vector at r. -/
theorem bcastCol_apply {n : Nat} (hn : n ≠ 1) (v : (⟨1, ![n]⟩ : Shape).Idx → α)
    (h : (⟨1, ![n]⟩ : Shape).BroadcastsInDim ⟨2, ![n, 1]⟩ ![0]) (r : Fin n) (u : Fin 1) :
    broadcastInDim ⟨2, ![n, 1]⟩ ![0] h v (ix2 r u) = v (ix1 r) :=
  broadcastInDim_apply _ h v _ _ fun a => match a with
    | ⟨0, _⟩ => by show r.val = if n = 1 then 0 else r.val; rw [if_neg hn]

/-- Row k sliced from an m-by-n matrix reads, at (u, q), the matrix at (k, q). -/
theorem sliceRow_apply {m n : Nat} (k : Nat) (hk : k < m) (x : (⟨2, ![m, n]⟩ : Shape).Idx → α)
    (h : (⟨2, ![m, n]⟩ : Shape).Slices ![k, 0] ⟨2, ![1, n]⟩) (u : Fin 1) (q : Fin n) :
    extractStridedSlice ⟨2, ![1, n]⟩ ![k, 0] x h (ix2 u q) = x (ix2 (⟨k, hk⟩ : Fin m) q) :=
  extractStridedSlice_apply _ x h _ _ fun a => match a with
    | ⟨0, _⟩ => by show k = k + u.val; omega
    | ⟨1, _⟩ => by show q.val = 0 + q.val; omega

/-- Column k sliced from an n-by-m matrix reads, at (r, u), the matrix at (r, k). -/
theorem sliceCol_apply {m n : Nat} (k : Nat) (hk : k < m) (x : (⟨2, ![n, m]⟩ : Shape).Idx → α)
    (h : (⟨2, ![n, m]⟩ : Shape).Slices ![0, k] ⟨2, ![n, 1]⟩) (r : Fin n) (u : Fin 1) :
    extractStridedSlice ⟨2, ![n, 1]⟩ ![0, k] x h (ix2 r u) = x (ix2 r (⟨k, hk⟩ : Fin m)) :=
  extractStridedSlice_apply _ x h _ _ fun a => match a with
    | ⟨0, _⟩ => by show r.val = 0 + r.val; omega
    | ⟨1, _⟩ => by show k = k + u.val; omega

/-- An n-by-1 column reshaped to a vector reads, at r, the column at (r, 0). -/
theorem colToVec_apply {n : Nat} (x : (⟨2, ![n, 1]⟩ : Shape).Idx → α)
    (h : (⟨2, ![n, 1]⟩ : Shape).ShapeCasts ⟨1, ![n]⟩) (r : Fin n) :
    shapeCast ⟨1, ![n]⟩ x h (ix1 r) = x (ix2 r (0 : Fin 1)) :=
  shapeCast_apply x h _ _ (by
    rw [Shape.rowMajor_val_two, Shape.rowMajor_val_one]
    show r.val * 1 + 0 = r.val
    omega)

end Cert.Harmonics

end
-- ==== Proof.KernelPayload.lean ====
/-
  The kernel body's result block, read at an index.

  The body loads a 3-by-32000 block of the transposed input, takes its three rows as vectors, scales each by the
  reciprocal of the rows' clamped length, evaluates the sixteen polynomials pointwise and stacks them as the rows of a
  16-by-32000 block, which it stores whole. So entry (p, q) of the stored block is the p-th polynomial of column q of
  the loaded block, scaled; and multiplying by the reciprocal of the clamped length is dividing by it.
-/
import proofs.«109719_j2241972929171_1_alg».proof.Proof.Gen.KernelIdeal.Frame
import proofs.«109719_j2241972929171_1_alg».proof.Proof.Spec
import proofs.«109719_j2241972929171_1_alg».proof.Proof.Rows

noncomputable section

namespace Cert.Harmonics.Ker

open Cert.KernelIdeal Cert.KernelIdeal.Gen
open Idealize.ShloMosaic Idealize.ShloMosaic.ValueIdx Idealize.ShloMosaic.Pipeline Cert.Harmonics

/-- The body's accesses start at the block's origin. -/
theorem origin : (![0, 0] : Fin 2 → Nat) = fun _ => 0 := funext fun a => by fin_cases a <;> rfl

variable (x0 : FVec Ideal S3x32000 .f32)

/-- The three rows of the loaded block, as vectors. -/
theorem rowA_apply (q : Fin 32000) : k0_pay3 (F := Ideal) x0 (ix1 q) = x0 (ix2 (0 : Fin 3) q) := by
  unfold k0_pay3 k0_pay2
  dsimp only
  rw [shapeCast_1a_a_apply, sliceRow_apply 0 (by decide), shapeCast_self]
  rfl
theorem rowB_apply (q : Fin 32000) : k0_pay4 (F := Ideal) x0 (ix1 q) = x0 (ix2 (1 : Fin 3) q) := by
  unfold k0_pay4 k0_pay2
  dsimp only
  rw [shapeCast_1a_a_apply, sliceRow_apply 1 (by decide), shapeCast_self]
  rfl
theorem rowC_apply (q : Fin 32000) : k0_pay5 (F := Ideal) x0 (ix1 q) = x0 (ix2 (2 : Fin 3) q) := by
  unfold k0_pay5 k0_pay2
  dsimp only
  rw [shapeCast_1a_a_apply, sliceRow_apply 2 (by decide), shapeCast_self]
  rfl

/-- The reciprocal of the clamped length of column q: the body's own operations, read at q. -/
theorem recip_apply (q : Fin 32000) :
    k0_pay6 (F := Ideal) x0 (ix1 q)
      = Ideal.div cOne (len (x0 (ix2 (0 : Fin 3) q)) (x0 (ix2 (1 : Fin 3) q)) (x0 (ix2 (2 : Fin 3) q))) := by
  rw [← rowA_apply x0 q, ← rowB_apply x0 q, ← rowC_apply x0 q]
  simp only [k0_pay6, divf_apply, maximumf_apply, sqrt_apply, addf_apply, mulf_apply, broadcast_apply, Ideal.ofBits_def, len]

/-- The three scaled rows at q: the unit vector of column q. -/
theorem ux_apply (q : Fin 32000) :
    k0_pay7 (F := Ideal) x0 (ix1 q)
      = Ideal.div (x0 (ix2 (0 : Fin 3) q)) (len (x0 (ix2 (0 : Fin 3) q)) (x0 (ix2 (1 : Fin 3) q)) (x0 (ix2 (2 : Fin 3) q))) := by
  rw [← mul_recip_len, ← recip_apply x0 q, ← rowA_apply x0 q]
  simp only [k0_pay7, mulf_apply]
theorem uy_apply (q : Fin 32000) :
    k0_pay8 (F := Ideal) x0 (ix1 q)
      = Ideal.div (x0 (ix2 (1 : Fin 3) q)) (len (x0 (ix2 (0 : Fin 3) q)) (x0 (ix2 (1 : Fin 3) q)) (x0 (ix2 (2 : Fin 3) q))) := by
  rw [← mul_recip_len, ← recip_apply x0 q, ← rowB_apply x0 q]
  simp only [k0_pay8, mulf_apply]
theorem uz_apply (q : Fin 32000) :
    k0_pay9 (F := Ideal) x0 (ix1 q)
      = Ideal.div (x0 (ix2 (2 : Fin 3) q)) (len (x0 (ix2 (0 : Fin 3) q)) (x0 (ix2 (1 : Fin 3) q)) (x0 (ix2 (2 : Fin 3) q))) := by
  rw [← mul_recip_len, ← recip_apply x0 q, ← rowC_apply x0 q]
  simp only [k0_pay9, mulf_apply]

/-- Read every pointwise stage of the polynomials, and every constant, at the index; unfold the specification's
    polynomials beside them. Both sides are then the same expression over the three scaled entries. -/
local macro "read_body" : tactic => `(tactic| simp only [k0_pay10, k0_pay11, k0_pay12, k0_pay13, k0_pay14, k0_pay15,
  k0_pay16, k0_pay17, k0_pay18, k0_pay19, k0_pay20, k0_pay21, k0_pay22, k0_pay23, k0_pay24, k0_pay25, k0_pay26, k0_pay27,
  mulf_apply, addf_apply, subf_apply, broadcast_apply, Ideal.ofBits_def, poly, d2a, d2e, ysq, xzsq])

/-- The sixteen stacked rows, each a vector reshaped to a row: at (0, q) they are the sixteen polynomials of the three
    scaled rows at q. The polynomials are pointwise, so this is the body's text read at q. -/
theorem rows_apply (q : Fin 32000) (p : Fin 16) :
    (![k0_pay28 (F := Ideal) (k0_pay10 (F := Ideal)), k0_pay29 (F := Ideal) (k0_pay11 (F := Ideal) x0), k0_pay30 (F := Ideal) (k0_pay12 (F := Ideal) x0), k0_pay31 (F := Ideal) (k0_pay13 (F := Ideal) x0),
      k0_pay32 (F := Ideal) (k0_pay16 (F := Ideal) x0), k0_pay33 (F := Ideal) (k0_pay17 (F := Ideal) x0), k0_pay34 (F := Ideal) (k0_pay18 (F := Ideal) x0),
      shapeCast S1x32000 (k0_pay19 (F := Ideal) x0) shapeCasts_S32000_S1x32000,
      shapeCast S1x32000 (k0_pay20 (F := Ideal) (k0_pay7 (F := Ideal) x0) (k0_pay9 (F := Ideal) x0)) shapeCasts_S32000_S1x32000,
      shapeCast S1x32000 (k0_pay21 (F := Ideal) (k0_pay7 (F := Ideal) x0) (k0_pay9 (F := Ideal) x0) (k0_pay16 (F := Ideal) x0)) shapeCasts_S32000_S1x32000,
      shapeCast S1x32000 (k0_pay22 (F := Ideal) (k0_pay8 (F := Ideal) x0) (k0_pay16 (F := Ideal) x0)) shapeCasts_S32000_S1x32000,
      shapeCast S1x32000 (k0_pay23 (F := Ideal) (k0_pay7 (F := Ideal) x0) (k0_pay14 (F := Ideal) x0) (k0_pay15 (F := Ideal) x0)) shapeCasts_S32000_S1x32000,
      shapeCast S1x32000 (k0_pay24 (F := Ideal) (k0_pay8 (F := Ideal) x0) (k0_pay14 (F := Ideal) x0) (k0_pay15 (F := Ideal) x0)) shapeCasts_S32000_S1x32000,
      shapeCast S1x32000 (k0_pay25 (F := Ideal) (k0_pay9 (F := Ideal) x0) (k0_pay14 (F := Ideal) x0) (k0_pay15 (F := Ideal) x0)) shapeCasts_S32000_S1x32000,
      shapeCast S1x32000 (k0_pay26 (F := Ideal) (k0_pay7 (F := Ideal) x0) (k0_pay8 (F := Ideal) x0) (k0_pay9 (F := Ideal) x0)) shapeCasts_S32000_S1x32000,
      shapeCast S1x32000 (k0_pay27 (F := Ideal) (k0_pay7 (F := Ideal) x0) (k0_pay9 (F := Ideal) x0) (k0_pay16 (F := Ideal) x0)) shapeCasts_S32000_S1x32000]
        : Fin 16 → FVec Ideal S1x32000 .f32) p (ix2 (0 : Fin 1) q)
      = poly (k0_pay7 (F := Ideal) x0 (ix1 q)) (k0_pay8 (F := Ideal) x0 (ix1 q)) (k0_pay9 (F := Ideal) x0 (ix1 q)) p := by
  match p with
  | ⟨0, _⟩ =>
    show k0_pay28 (F := Ideal) (k0_pay10 (F := Ideal)) (ix2 (0 : Fin 1) q) = _
    simp only [k0_pay28]
    rw [shapeCast_a_1a_apply]; read_body
  | ⟨1, _⟩ =>
    show k0_pay29 (F := Ideal) (k0_pay11 (F := Ideal) x0) (ix2 (0 : Fin 1) q) = _
    simp only [k0_pay29]
    rw [shapeCast_a_1a_apply]; read_body
  | ⟨2, _⟩ =>
    show k0_pay30 (F := Ideal) (k0_pay12 (F := Ideal) x0) (ix2 (0 : Fin 1) q) = _
    simp only [k0_pay30]
    rw [shapeCast_a_1a_apply]; read_body
  | ⟨3, _⟩ =>
    show k0_pay31 (F := Ideal) (k0_pay13 (F := Ideal) x0) (ix2 (0 : Fin 1) q) = _
    simp only [k0_pay31]
    rw [shapeCast_a_1a_apply]; read_body
  | ⟨4, _⟩ =>
    show k0_pay32 (F := Ideal) (k0_pay16 (F := Ideal) x0) (ix2 (0 : Fin 1) q) = _
    simp only [k0_pay32]
    rw [shapeCast_a_1a_apply]; read_body
  | ⟨5, _⟩ =>
    show k0_pay33 (F := Ideal) (k0_pay17 (F := Ideal) x0) (ix2 (0 : Fin 1) q) = _
    simp only [k0_pay33]
    rw [shapeCast_a_1a_apply]; read_body
  | ⟨6, _⟩ =>
    show k0_pay34 (F := Ideal) (k0_pay18 (F := Ideal) x0) (ix2 (0 : Fin 1) q) = _
    simp only [k0_pay34]
    rw [shapeCast_a_1a_apply]; read_body
  | ⟨7, _⟩ =>
    show shapeCast S1x32000 (k0_pay19 (F := Ideal) x0) shapeCasts_S32000_S1x32000 (ix2 (0 : Fin 1) q) = _
    rw [shapeCast_a_1a_apply]; read_body
  | ⟨8, _⟩ =>
    show shapeCast S1x32000 (k0_pay20 (F := Ideal) (k0_pay7 (F := Ideal) x0) (k0_pay9 (F := Ideal) x0)) shapeCasts_S32000_S1x32000 (ix2 (0 : Fin 1) q) = _
    rw [shapeCast_a_1a_apply]; read_body
  | ⟨9, _⟩ =>
    show shapeCast S1x32000 (k0_pay21 (F := Ideal) (k0_pay7 (F := Ideal) x0) (k0_pay9 (F := Ideal) x0) (k0_pay16 (F := Ideal) x0)) shapeCasts_S32000_S1x32000 (ix2 (0 : Fin 1) q) = _
    rw [shapeCast_a_1a_apply]; read_body
  | ⟨10, _⟩ =>
    show shapeCast S1x32000 (k0_pay22 (F := Ideal) (k0_pay8 (F := Ideal) x0) (k0_pay16 (F := Ideal) x0)) shapeCasts_S32000_S1x32000 (ix2 (0 : Fin 1) q) = _
    rw [shapeCast_a_1a_apply]; read_body
  | ⟨11, _⟩ =>
    show shapeCast S1x32000 (k0_pay23 (F := Ideal) (k0_pay7 (F := Ideal) x0) (k0_pay14 (F := Ideal) x0) (k0_pay15 (F := Ideal) x0)) shapeCasts_S32000_S1x32000 (ix2 (0 : Fin 1) q) = _
    rw [shapeCast_a_1a_apply]; read_body
  | ⟨12, _⟩ =>
    show shapeCast S1x32000 (k0_pay24 (F := Ideal) (k0_pay8 (F := Ideal) x0) (k0_pay14 (F := Ideal) x0) (k0_pay15 (F := Ideal) x0)) shapeCasts_S32000_S1x32000 (ix2 (0 : Fin 1) q) = _
    rw [shapeCast_a_1a_apply]; read_body
  | ⟨13, _⟩ =>
    show shapeCast S1x32000 (k0_pay25 (F := Ideal) (k0_pay9 (F := Ideal) x0) (k0_pay14 (F := Ideal) x0) (k0_pay15 (F := Ideal) x0)) shapeCasts_S32000_S1x32000 (ix2 (0 : Fin 1) q) = _
    rw [shapeCast_a_1a_apply]; read_body
  | ⟨14, _⟩ =>
    show shapeCast S1x32000 (k0_pay26 (F := Ideal) (k0_pay7 (F := Ideal) x0) (k0_pay8 (F := Ideal) x0) (k0_pay9 (F := Ideal) x0)) shapeCasts_S32000_S1x32000 (ix2 (0 : Fin 1) q) = _
    rw [shapeCast_a_1a_apply]; read_body
  | ⟨15, _⟩ =>
    show shapeCast S1x32000 (k0_pay27 (F := Ideal) (k0_pay7 (F := Ideal) x0) (k0_pay9 (F := Ideal) x0) (k0_pay16 (F := Ideal) x0)) shapeCasts_S32000_S1x32000 (ix2 (0 : Fin 1) q) = _
    rw [shapeCast_a_1a_apply]; read_body
  | ⟨n + 16, h⟩ => exact absurd h (by omega)

/-- Entry (p, q) of the block the body stores: the p-th polynomial of column q of the loaded block over its clamped
    length. -/
theorem block_apply (p : Fin 16) (q : Fin 32000) :
    out0_1 (F := Ideal) x0 (ix2 p q)
      = poly (Ideal.div (x0 (ix2 (0 : Fin 3) q)) (len (x0 (ix2 (0 : Fin 3) q)) (x0 (ix2 (1 : Fin 3) q)) (x0 (ix2 (2 : Fin 3) q))))
             (Ideal.div (x0 (ix2 (1 : Fin 3) q)) (len (x0 (ix2 (0 : Fin 3) q)) (x0 (ix2 (1 : Fin 3) q)) (x0 (ix2 (2 : Fin 3) q))))
             (Ideal.div (x0 (ix2 (2 : Fin 3) q)) (len (x0 (ix2 (0 : Fin 3) q)) (x0 (ix2 (1 : Fin 3) q)) (x0 (ix2 (2 : Fin 3) q)))) p := by
  unfold out0_1
  rw [View.canon_unit_zero origin]
  simp only [View.ld_unit_zero (S := S3x32000) origin]
  unfold k0_pay1
  rw [stack16_apply (t := S16x32000) (s₁ := S1x32000) (0 : Fin 2) _ _ _ _ _ _ _ _ _ _ _ _ _ _ _ _ _ rfl rfl (ix2 p q) p rfl (ix2 (0 : Fin 1) q)
    (fun b hb => by match b with | ⟨0, _⟩ => exact absurd rfl hb | ⟨1, _⟩ => rfl)]
  rw [rows_apply, ux_apply, uy_apply, uz_apply]

end Cert.Harmonics.Ker

end
-- ==== Proof.KernelValue.lean ====
/-
  The kernel program's result is the specification.

  The program transposes its argument to a 3-by-N array, runs the kernel over 100 blocks of 32000 columns, each
  block of the 16-by-N result a function of the same columns of the input, and transposes the result back. Block t
  of the result is therefore block t of ONE whole-array function of the transposed input (the specification with
  rows and columns exchanged); the blocks cover the array; and the two transposes turn that function into the
  specification of the argument.
-/
import proofs.«109719_j2241972929171_1_alg».proof.Proof.Gen.KernelIdeal.Frame
import proofs.«109719_j2241972929171_1_alg».proof.Proof.KernelPayload
import Idealize.ShloMosaic.Lib.Pipeline.Value
import Idealize.ShloMosaic.Lib.ValueLayout
import Idealize.ShloMosaic.Lib.StableHlo.Run
import Idealize.ShloMosaic.Lib.Tactic

noncomputable section

namespace Cert.Harmonics.Ker

open Cert.KernelIdeal Cert.KernelIdeal.Gen
open Idealize.ShloMosaic Idealize.ShloMosaic.TcCoe Idealize.SL.Sem Idealize.ShloMosaic.ValueIdx Cert.Harmonics
open Idealize.ShloMosaic.Pipeline (Dat)

variable (m : (ℓ : Loc nD τ sig) → Buf (Elt Ideal) ℓ) (ρ : Dev nD → PrngReg)

/-! ## The specification with rows and columns exchanged -/

/-- Entry (j, i) of the kernel's 16-by-N result as a function of the 3-by-N input a: the j-th polynomial of
    column i of a over the column's clamped length. -/
def Gt (a : S3x3200000.Idx → EReal) : S16x3200000.Idx → EReal := fun i =>
  poly (Ideal.div (a (ix2 (0 : Fin 3) (i 1))) (len (a (ix2 (0 : Fin 3) (i 1))) (a (ix2 (1 : Fin 3) (i 1))) (a (ix2 (2 : Fin 3) (i 1)))))
       (Ideal.div (a (ix2 (1 : Fin 3) (i 1))) (len (a (ix2 (0 : Fin 3) (i 1))) (a (ix2 (1 : Fin 3) (i 1))) (a (ix2 (2 : Fin 3) (i 1)))))
       (Ideal.div (a (ix2 (2 : Fin 3) (i 1))) (len (a (ix2 (0 : Fin 3) (i 1))) (a (ix2 (1 : Fin 3) (i 1))) (a (ix2 (2 : Fin 3) (i 1)))))
       (i 0)

/-- One entry of a stored block against one entry of Gt: they agree when the rows agree and the three input
    entries of the block's column are the three entries of the array's column. -/
theorem point_eq (x0 : FVec Ideal S3x32000 .f32) (a : S3x3200000.Idx → EReal) (y : S16x32000.Idx) (i : S16x3200000.Idx)
    (h0 : (i 0).val = (y 0).val) (hx : ∀ k : Fin 3, x0 (ix2 k (y 1)) = a (ix2 k (i 1))) :
    out0_1 (F := Ideal) x0 y = Gt a i := by
  obtain ⟨p, q, rfl⟩ : ∃ (p : Fin 16) (q : Fin 32000), y = ix2 p q := ⟨y 0, y 1, eq_ix2 y⟩
  have hp : i 0 = p := Fin.ext h0
  rw [block_apply]
  unfold Gt
  rw [← hx 0, ← hx 1, ← hx 2, hp]

/-! ## The blocks -/

/-- Both windows' block index at point t is (0, t): decided over the 100 points. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- The input window's block at point t is columns 32000 t … 32000 t + 31999 of the transposed input. -/
theorem iblk_apply (c : Dev nD) (t : Fin cfg0.N) (k : Fin 3) (q : Fin 32000) (i : Fin 3200000)
    (hi : i.val = t.val * 32000 + q.val) :
    (iblk m c 0 t : Vec Ideal S3x32000 .f32) (ix2 k q) = (V m c main_v0 : S3x3200000.Idx → EReal) (ix2 k i) := by
  obtain ⟨e0, e1, -, -⟩ := idx_facts t
  unfold iblk
  rw [View.read_apply]
  show V m c main_v0 _ = V m c main_v0 _
  congr 1
  funext a
  apply Fin.ext
  match a with
  | ⟨0, _⟩ => show win0_0.index t 0 * 3 + 1 * k.val = k.val; rw [e0]; omega
  | ⟨1, _⟩ => show win0_0.index t 1 * 32000 + 1 * q.val = i.val; rw [e1, hi]; omega

/-- What point t writes back is block t of Gt of the transposed input. -/
theorem flushed_eq (c : Dev nD) (t : Fin cfg0.N) :
    (dats m 0 c).flushed 1 t = ((cfg0.win 1).blk t).view.read (Elt Ideal) (Gt (V m c main_v0)) := by
  show (cfg0.win 1).cut (grid0.coords t) ((dats m 0 c).after 1 t) = _
  rw [after0_1]
  obtain ⟨-, -, e2, e3⟩ := idx_facts t
  funext y
  refine point_eq (iblk m c 0 t) (V m c main_v0) y (((cfg0.win 1).blk t).view.emb y) ?_ ?_
  · show win0_1.index t 0 * 16 + 1 * (y 0).val = (y 0).val
    rw [e2]; omega
  · intro k
    refine iblk_apply m c t k (y 1) _ ?_
    show win0_1.index t 1 * 32000 + 1 * (y 1).val = t.val * 32000 + (y 1).val
    rw [e3]; omega

/-- An index of the result array is in point t's block iff each coordinate is in the block's range. -/
theorem mem_blk (t : Fin cfg0.N) (i : S16x3200000.Idx) :
    i ∈ ((cfg0.win 1).blk t).view.set ↔ ∀ a : Fin 2, win0_1.index t a * S16x32000.size a ≤ (i a).val
      ∧ (i a).val < win0_1.index t a * S16x32000.size a + S16x32000.size a := by
  show i ∈ ((View.whole main_v1).slice (win0_1.rect t)).set ↔ _
  rw [View.set_slice_whole, Rect.mem_set_unit]
  exact Iff.rfl

/-- Every index of the result array is in the block of the point its column falls in. -/
theorem cover (i : S16x3200000.Idx) :
    ∃ t : Fin cfg0.N, (cfg0.win 1).flush t = true ∧ i ∈ ((cfg0.win 1).blk t).view.set := by
  have h0 : (i 0).val < 16 := (i 0).isLt
  have h1 : (i 1).val < 3200000 := (i 1).isLt
  have hN : cfg0.N = 100 := N_0
  have ht : (i 1).val / 32000 < cfg0.N := by rw [hN]; omega
  obtain ⟨-, -, e2, e3⟩ := idx_facts ⟨(i 1).val / 32000, ht⟩
  refine ⟨⟨(i 1).val / 32000, ht⟩, flush0_1 _, ?_⟩
  rw [mem_blk]
  intro a
  match a with
  | ⟨0, _⟩ =>
    show win0_1.index ⟨(i 1).val / 32000, ht⟩ 0 * 16 ≤ (i 0).val ∧ (i 0).val < win0_1.index ⟨(i 1).val / 32000, ht⟩ 0 * 16 + 16
    rw [e2]; omega
  | ⟨1, _⟩ =>
    show win0_1.index ⟨(i 1).val / 32000, ht⟩ 1 * 32000 ≤ (i 1).val ∧ (i 1).val < win0_1.index ⟨(i 1).val / 32000, ht⟩ 1 * 32000 + 32000
    rw [e3]
    show (i 1).val / 32000 * 32000 ≤ (i 1).val ∧ (i 1).val < (i 1).val / 32000 * 32000 + 32000
    omega

/-- The kernel's result array after the run is Gt of the transposed input. -/
theorem final (c : Dev nD) : (dats m 0 c).arrAt 1 cfg0.N = Gt (V m c main_v0) :=
  (dats m 0 c).arrAt_eq_of_cover 1 (Gt (V m c main_v0)) (fun t _ => flushed_eq m c t) cover

/-! ## The two transposes -/

/-- The array the kernel reads is the argument transposed. -/
theorem input_apply (c : Dev nD) (k : Fin 3) (i : Fin 3200000) :
    (V m c main_v0 : S3x3200000.Idx → EReal) (ix2 k i) = (m ((c : Thread nD τ).loc main_arg0) : S3200000x3.Idx → EReal) (ix2 i k) := by
  have e : (V m c main_v0 : S3x3200000.Idx → EReal)
      = transpose S3x3200000 [1, 0] (m ((c : Thread nD τ).loc main_arg0)) transposes_S3200000x3_S3x3200000_1_0 := by
    show StableHlo.after hostOps0 (fun b => m (c, b)) (Proc.devRef .tc main_v0) = _
    after_results
  rw [e, transpose_ix2_apply]

/-- Gt and the specification at an index given by coordinates. -/
theorem Gt_apply (a : S3x3200000.Idx → EReal) (j : Fin 16) (r : Fin 3200000) :
    Gt a (ix2 j r) = poly (Ideal.div (a (ix2 (0 : Fin 3) r)) (len (a (ix2 (0 : Fin 3) r)) (a (ix2 (1 : Fin 3) r)) (a (ix2 (2 : Fin 3) r))))
      (Ideal.div (a (ix2 (1 : Fin 3) r)) (len (a (ix2 (0 : Fin 3) r)) (a (ix2 (1 : Fin 3) r)) (a (ix2 (2 : Fin 3) r))))
      (Ideal.div (a (ix2 (2 : Fin 3) r)) (len (a (ix2 (0 : Fin 3) r)) (a (ix2 (1 : Fin 3) r)) (a (ix2 (2 : Fin 3) r)))) j := rfl
theorem G_apply (arg : S3200000x3.Idx → EReal) (r : Fin 3200000) (j : Fin 16) :
    G arg (ix2 r j) = poly (Ideal.div (arg (ix2 r (0 : Fin 3))) (len (arg (ix2 r (0 : Fin 3))) (arg (ix2 r (1 : Fin 3))) (arg (ix2 r (2 : Fin 3)))))
      (Ideal.div (arg (ix2 r (1 : Fin 3))) (len (arg (ix2 r (0 : Fin 3))) (arg (ix2 r (1 : Fin 3))) (arg (ix2 r (2 : Fin 3)))))
      (Ideal.div (arg (ix2 r (2 : Fin 3))) (len (arg (ix2 r (0 : Fin 3))) (arg (ix2 r (1 : Fin 3))) (arg (ix2 r (2 : Fin 3))))) j := rfl

/-- The program's result, the kernel's array transposed back, is the specification of the argument. -/
theorem result_eq (c : Dev nD) :
    Pipeline.afterTail₀ cfgs (dats m) 0 (V0 m) [hostOps1] c main_v2 = G (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = Gt (V m c main_v0) :=
    (Pipeline.withArrays_arr spec0 launch0.win.arr_inj c _ _ 1).trans (final m c)
  rw [e]
  funext i
  obtain ⟨r, j, rfl⟩ : ∃ (r : Fin 3200000) (j : Fin 16), i = ix2 r j := ⟨i 0, i 1, eq_ix2 i⟩
  rw [transpose_ix2_apply, Gt_apply, G_apply, input_apply m c 0 r, input_apply m c 1 r, input_apply m c 2 r]

/-! ## The run -/

/-- Every execution of the kernel program ends with its result at the specification of the argument, the argument
    unchanged: the generated frame run, its tail's result and its kept argument read. -/
theorem run : θ_run defs (onTc (τ := τ) (main (F := Ideal))) ⟨m, fun _ => 0, ρ⟩ fun r => ∀ c : Dev nD,
      r.2.mem ((c : Thread nD τ).loc main_v2) = G (m ((c : Thread nD τ).loc main_arg0))
      ∧ r.2.mem ((c : Thread nD τ).loc main_arg0) = m ((c : Thread nD τ).loc main_arg0) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c)⟩)
    (run_main m ρ)

end Cert.Harmonics.Ker

end
-- ==== Proof.RefValue.lean ====
/-
  The reference program's result is the specification: row r, column j of its output is the j-th polynomial of
  row r of the input divided by its clamped length.

  The reference slices the three columns out of the quotient array, evaluates the polynomials on the three
  vectors and stacks the sixteen results as columns. Read at an index: the stack picks its column; a column is a
  vector read at the row; the polynomials are pointwise, so they read their three vectors at that row; and
  each of the three vectors, at a row, is the input entry over the clamped length of the row, the length's
  sum of squares being the host's sum over the row's three entries from the zero word.
-/
import proofs.«109719_j2241972929171_1_alg».proof.Proof.Gen.ReferenceIdeal.Read
import proofs.«109719_j2241972929171_1_alg».proof.Proof.Spec
import proofs.«109719_j2241972929171_1_alg».proof.Proof.Rows

noncomputable section

namespace Cert.Harmonics.Ref

open Cert.ReferenceIdeal Cert.ReferenceIdeal.Gen Cert.ReferenceIdeal.Read
open Idealize.ShloMosaic Idealize.ShloMosaic.ValueIdx Idealize.ShloMosaic.Pipeline Cert.Harmonics

variable (x0 : (⟨S3200000x3, .f32⟩ : BufTy).Contents (Elt Ideal))

/-- The clamped length, broadcast along the row: at (r, k) it is the length of row r, whatever k. The sum of
    squares is the zero word plus the sum over the row's three entries. -/
theorem len_apply (r : Fin 3200000) (k : Fin 3) :
    val_main_v3 (F := Ideal) x0 (ix2 r k) = len (x0 (ix2 r 0)) (x0 (ix2 r 1)) (x0 (ix2 r 2)) := by
  rw [val_main_v3_apply, val_main_v2_apply, val_main_v0_apply, val_main_call0_v2_apply, val_main_call0_v1_apply,
    val_main_v1_apply, Fin.sum_univ_three]
  have e0 : idx_main_call0_v1 (idx_main_call0_v2 (idx_main_v3 (ix2 r k))) 0 = ix2 r 0 :=
    funext fun a => Fin.ext (by match a with | ⟨0, _⟩ => rfl | ⟨1, _⟩ => rfl)
  have e1 : idx_main_call0_v1 (idx_main_call0_v2 (idx_main_v3 (ix2 r k))) 1 = ix2 r 1 :=
    funext fun a => Fin.ext (by match a with | ⟨0, _⟩ => rfl | ⟨1, _⟩ => rfl)
  have e2 : idx_main_call0_v1 (idx_main_call0_v2 (idx_main_v3 (ix2 r k))) 2 = ix2 r 2 :=
    funext fun a => Fin.ext (by match a with | ⟨0, _⟩ => rfl | ⟨1, _⟩ => rfl)
  rw [e0, e1, e2]
  show max (Ideal.sqrt (Ideal.ofBits .f32 0x00000000#32 + (x0 (ix2 r 0) * x0 (ix2 r 0) + x0 (ix2 r 1) * x0 (ix2 r 1) + x0 (ix2 r 2) * x0 (ix2 r 2)))) cEps = _
  rw [Ideal.ofBits_zero_f32, zero_add]
  rfl

/-- Column k of the quotient array as a vector: at row r, entry (r, k) of the input over the row's clamped length. -/
theorem quot_apply (r : Fin 3200000) (k : Fin 3) :
    val_main_v4 (F := Ideal) x0 (ix2 r k) = Ideal.div (x0 (ix2 r k)) (len (x0 (ix2 r 0)) (x0 (ix2 r 1)) (x0 (ix2 r 2))) := by
  rw [val_main_v4_apply, len_apply]
  rfl

/-- The three unit-vector components at row r. -/
theorem ux_apply (r : Fin 3200000) :
    val_main_v6 (F := Ideal) x0 (ix1 r) = Ideal.div (x0 (ix2 r 0)) (len (x0 (ix2 r 0)) (x0 (ix2 r 1)) (x0 (ix2 r 2))) := by
  unfold val_main_v6 val_main_v5
  rw [colToVec_apply, sliceCol_apply 0 (by decide), quot_apply]
  rfl
theorem uy_apply (r : Fin 3200000) :
    val_main_v8 (F := Ideal) x0 (ix1 r) = Ideal.div (x0 (ix2 r 1)) (len (x0 (ix2 r 0)) (x0 (ix2 r 1)) (x0 (ix2 r 2))) := by
  unfold val_main_v8 val_main_v7
  rw [colToVec_apply, sliceCol_apply 1 (by decide), quot_apply]
  rfl
theorem uz_apply (r : Fin 3200000) :
    val_main_v10 (F := Ideal) x0 (ix1 r) = Ideal.div (x0 (ix2 r 2)) (len (x0 (ix2 r 0)) (x0 (ix2 r 1)) (x0 (ix2 r 2))) := by
  unfold val_main_v10 val_main_v9
  rw [colToVec_apply, sliceCol_apply 2 (by decide), quot_apply]
  rfl

/-- The sixteen columns, each a vector broadcast to a column: at (r, 0) they are the sixteen polynomials of the
    three component vectors at row r. The polynomials are pointwise: each stage is read at r, outermost first, down to the
    three component vectors and the constants, and what is left is the specification's expression. -/
theorem cols_apply (r : Fin 3200000) (j : Fin 16) :
    pick16 (val_main_v77 (F := Ideal)) (val_main_v78 (F := Ideal) x0) (val_main_v79 (F := Ideal) x0) (val_main_v80 (F := Ideal) x0)
      (val_main_v81 (F := Ideal) x0) (val_main_v82 (F := Ideal) x0) (val_main_v83 (F := Ideal) x0) (val_main_v84 (F := Ideal) x0)
      (val_main_v85 (F := Ideal) x0) (val_main_v86 (F := Ideal) x0) (val_main_v87 (F := Ideal) x0) (val_main_v88 (F := Ideal) x0)
      (val_main_v89 (F := Ideal) x0) (val_main_v90 (F := Ideal) x0) (val_main_v91 (F := Ideal) x0) (val_main_v92 (F := Ideal) x0)
      j (ix2 r (0 : Fin 1))
      = poly (val_main_v6 (F := Ideal) x0 (ix1 r)) (val_main_v8 (F := Ideal) x0 (ix1 r)) (val_main_v10 (F := Ideal) x0 (ix1 r)) j := by
  have hn : (3200000 : Nat) ≠ 1 := by decide
  match j with
  | ⟨0, _⟩ =>
    rw [pick16]
    unfold val_main_v77
    rw [bcastCol_apply hn]
    rw [val_main_v11_apply, val_main_cst_0_apply]
    rfl
  | ⟨1, _⟩ =>
    rw [pick16]
    unfold val_main_v78
    rw [bcastCol_apply hn]
    rw [val_main_v13_apply, val_main_v12_apply, val_main_cst_1_apply]
    rfl
  | ⟨2, _⟩ =>
    rw [pick16]
    unfold val_main_v79
    rw [bcastCol_apply hn]
    rw [val_main_v15_apply, val_main_v14_apply, val_main_cst_2_apply]
    rfl
  | ⟨3, _⟩ =>
    rw [pick16]
    unfold val_main_v80
    rw [bcastCol_apply hn]
    rw [val_main_v17_apply, val_main_v16_apply, val_main_cst_3_apply]
    rfl
  | ⟨4, _⟩ =>
    rw [pick16]
    unfold val_main_v81
    rw [bcastCol_apply hn]
    rw [val_main_v24_apply, val_main_v23_apply, val_main_v22_apply, val_main_cst_4_apply]
    rfl
  | ⟨5, _⟩ =>
    rw [pick16]
    unfold val_main_v82
    rw [bcastCol_apply hn]
    rw [val_main_v27_apply, val_main_v26_apply, val_main_v25_apply, val_main_cst_5_apply]
    rfl
  | ⟨6, _⟩ =>
    rw [pick16]
    unfold val_main_v83
    rw [bcastCol_apply hn]
    rw [val_main_v32_apply, val_main_v30_apply, val_main_v29_apply, val_main_v21_apply, val_main_v20_apply,
      val_main_v19_apply, val_main_v28_apply, val_main_cst_6_apply, val_main_v18_apply, val_main_v31_apply,
      val_main_cst_7_apply]
    rfl
  | ⟨7, _⟩ =>
    rw [pick16]
    unfold val_main_v84
    rw [bcastCol_apply hn]
    rw [val_main_v35_apply, val_main_v34_apply, val_main_v33_apply, val_main_cst_8_apply]
    rfl
  | ⟨8, _⟩ =>
    rw [pick16]
    unfold val_main_v85
    rw [bcastCol_apply hn]
    rw [val_main_v40_apply, val_main_v38_apply, val_main_v37_apply, val_main_v36_apply, val_main_v39_apply,
      val_main_cst_9_apply]
    rfl
  | ⟨9, _⟩ =>
    rw [pick16]
    unfold val_main_v86
    rw [bcastCol_apply hn]
    rw [val_main_v45_apply, val_main_v43_apply, val_main_v42_apply, val_main_v40_apply, val_main_v38_apply,
      val_main_v37_apply, val_main_v36_apply, val_main_v39_apply, val_main_cst_9_apply, val_main_v41_apply,
      val_main_v24_apply, val_main_v23_apply, val_main_v22_apply, val_main_cst_4_apply, val_main_v44_apply,
      val_main_cst_10_apply]
    rfl
  | ⟨10, _⟩ =>
    rw [pick16]
    unfold val_main_v87
    rw [bcastCol_apply hn]
    rw [val_main_v48_apply, val_main_v47_apply, val_main_v24_apply, val_main_v23_apply, val_main_v22_apply,
      val_main_cst_4_apply, val_main_v46_apply, val_main_cst_11_apply]
    rfl
  | ⟨11, _⟩ =>
    rw [pick16]
    unfold val_main_v88
    rw [bcastCol_apply hn]
    rw [val_main_v54_apply, val_main_v53_apply, val_main_v51_apply, val_main_v21_apply, val_main_v20_apply,
      val_main_v19_apply, val_main_v50_apply, val_main_v18_apply, val_main_v49_apply, val_main_cst_12_apply,
      val_main_v52_apply, val_main_cst_13_apply]
    rfl
  | ⟨12, _⟩ =>
    rw [pick16]
    unfold val_main_v89
    rw [bcastCol_apply hn]
    rw [val_main_v62_apply, val_main_v61_apply, val_main_v60_apply, val_main_v21_apply, val_main_v20_apply,
      val_main_v19_apply, val_main_v59_apply, val_main_cst_16_apply, val_main_v58_apply, val_main_v18_apply,
      val_main_v57_apply, val_main_cst_15_apply, val_main_v56_apply, val_main_v55_apply, val_main_cst_14_apply]
    rfl
  | ⟨13, _⟩ =>
    rw [pick16]
    unfold val_main_v90
    rw [bcastCol_apply hn]
    rw [val_main_v68_apply, val_main_v67_apply, val_main_v21_apply, val_main_v20_apply, val_main_v19_apply,
      val_main_v66_apply, val_main_v18_apply, val_main_v65_apply, val_main_cst_18_apply, val_main_v64_apply,
      val_main_v63_apply, val_main_cst_17_apply]
    rfl
  | ⟨14, _⟩ =>
    rw [pick16]
    unfold val_main_v91
    rw [bcastCol_apply hn]
    rw [val_main_v71_apply, val_main_v70_apply, val_main_v40_apply, val_main_v38_apply, val_main_v37_apply,
      val_main_v36_apply, val_main_v39_apply, val_main_cst_9_apply, val_main_v69_apply, val_main_cst_19_apply]
    rfl
  | ⟨15, _⟩ =>
    rw [pick16]
    unfold val_main_v92
    rw [bcastCol_apply hn]
    rw [val_main_v76_apply, val_main_v74_apply, val_main_v73_apply, val_main_v24_apply, val_main_v23_apply,
      val_main_v22_apply, val_main_cst_4_apply, val_main_v72_apply, val_main_v40_apply, val_main_v38_apply,
      val_main_v37_apply, val_main_v36_apply, val_main_v39_apply, val_main_cst_9_apply, val_main_v75_apply,
      val_main_cst_20_apply]
    rfl
  | ⟨n + 16, h⟩ => exact absurd h (by omega)

/-- The reference's result array is the specification of its argument. -/
theorem result_eq : val_main_v93 (F := Ideal) x0 = G x0 := by
  funext i
  obtain ⟨r, j, rfl⟩ : ∃ (r : Fin 3200000) (j : Fin 16), i = ix2 r j := ⟨i 0, i 1, eq_ix2 i⟩
  unfold val_main_v93
  rw [stack16_pick_apply (t := S3200000x16) (s₁ := S3200000x1) (1 : Fin 2) _ _ _ _ _ _ _ _ _ _ _ _ _ _ _ _ _ rfl rfl (ix2 r j) j rfl (ix2 r (0 : Fin 1))
    (fun b hb => by match b with | ⟨0, _⟩ => rfl | ⟨1, _⟩ => exact absurd rfl hb)]
  rw [cols_apply, ux_apply, uy_apply, uz_apply]
  rfl

end Cert.Harmonics.Ref

end
-- ==== Proof.lean ====
/-
  The kernel and its reference compute, for each of 3,200,000 edge vectors (a, b, c), the sixteen real
  spherical-harmonic polynomials of degrees 0 to 3 of the unit vector (a, b, c) / d, d = max(sqrt(a*a + b*b + c*c), eps).

  At the ideal instance both programs evaluate the SAME sixteen polynomial expressions, constant by constant and
  operation by operation, of the three components of the unit vector; they differ only in how the unit vector is
  formed and in the layout. The kernel works on the transposed input, block by block, multiplies each component by the
  reciprocal 1 / d and stacks the sixteen results as rows, and its result is transposed back; the reference divides
  each component by d, takes the length's sum of squares as a host sum from zero, and stacks the results as columns.
  On the extended reals x * (1 / d) = x / d whenever d is not zero, and d is at least eps > 0: so the two results are
  one function of the argument (Spec.lean's G), index by index, and no finiteness of the input is used.

  The kernel side: its stored block at an index (KernelPayload.lean), the blocks as restrictions of one whole-array
  function, their cover, and the two transposes (KernelValue.lean). The reference side: its stages read at an index
  (RefValue.lean). The frames of the two kernel programs are the generated ones; the reference's frame is its generated
  run with the result dropped; the idealization rewrote nothing.
-/
import proofs.«109719_j2241972929171_1_alg».proof.Defs
import proofs.«109719_j2241972929171_1_alg».proof.Proof.Gen.Kernel
import proofs.«109719_j2241972929171_1_alg».proof.Proof.Gen.Kernel.Skeleton
import proofs.«109719_j2241972929171_1_alg».proof.Proof.Gen.Kernel.Launch
import proofs.«109719_j2241972929171_1_alg».proof.Proof.Gen.Kernel.Points
import proofs.«109719_j2241972929171_1_alg».proof.Proof.Gen.Kernel.Frame
import proofs.«109719_j2241972929171_1_alg».proof.Proof.Gen.KernelIdeal
import proofs.«109719_j2241972929171_1_alg».proof.Proof.Gen.KernelIdeal.Skeleton
import proofs.«109719_j2241972929171_1_alg».proof.Proof.Gen.KernelIdeal.Launch
import proofs.«109719_j2241972929171_1_alg».proof.Proof.Gen.KernelIdeal.Points
import proofs.«109719_j2241972929171_1_alg».proof.Proof.Gen.KernelIdeal.Frame
import proofs.«109719_j2241972929171_1_alg».proof.Proof.Gen.ReferenceIdeal
import proofs.«109719_j2241972929171_1_alg».proof.Proof.Gen.Pre_finite_inputs
import proofs.«109719_j2241972929171_1_alg».proof.Proof.Gen.ReferenceIdeal.Run
import proofs.«109719_j2241972929171_1_alg».proof.Proof.Gen.ReferenceIdeal.Read
import proofs.«109719_j2241972929171_1_alg».proof.Proof.KernelValue
import proofs.«109719_j2241972929171_1_alg».proof.Proof.RefValue
import Idealize.ShloMosaic.Adequacy
import Idealize.ShloMosaic.Init

noncomputable section

namespace Cert.Proof

open Idealize.ShloMosaic Idealize.ShloMosaic.TcCoe Idealize.SL.Sem

/-- The two kernel programs' frames, at their instances. -/
theorem frame_k : Cert.frame_Kernel := fun m ρ _ => Cert.Kernel.Gen.frame m ρ
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification of the (agreeing) argument. -/
theorem algebraic : Cert.algebraic_KernelIdeal_ReferenceIdeal := by
  intro m ρ m' ρ' _ hagree
  refine ⟨fun c => Cert.Harmonics.G (m ((c.tc : Thread Cert.KernelIdeal.nD Cert.KernelIdeal.τ).loc Cert.KernelIdeal.main_arg0)),
    Cert.Harmonics.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, Cert.Harmonics.Ref.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
